-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S1024x1024 : Shape := ⟨2, ![1024, 1024]⟩
abbrev S512x1024 : Shape := ⟨2, ![512, 1024]⟩
abbrev S512x16 : Shape := ⟨2, ![512, 16]⟩
abbrev S16x1024 : Shape := ⟨2, ![16, 1024]⟩
abbrev S1x512 : Shape := ⟨2, ![1, 512]⟩
abbrev S1024x512 : Shape := ⟨2, ![1024, 512]⟩

abbrev nBuf : Space → Nat
  | .hbm => 9
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S512x16, .f32⟩
  | .local _ .vmem, ⟨5, _⟩ => ⟨S512x16, .f32⟩
  | .local _ .vmem, ⟨6, _⟩ => ⟨S16x1024, .f32⟩
  | .local _ .vmem, ⟨7, _⟩ => ⟨S16x1024, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x16_S512x16_0_0 : ∀ a, (![0, 0] : Fin 2 → Nat) a + S512x16.size a ≤ S512x16.size a
  h_S512x16 : 0 < S512x16.numel
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S8192x4096_S4x2048x4096 : S8192x4096.ShapeCasts S4x2048x4096
  dot_S512x16_S16x1024_S512x1024_1_0_0_1_n_n_wf : DotDims.WF S512x16 S16x1024 S512x1024 [1] [0] [0] [1] [] []
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S4096x16.size a
  hwx0_2 : ∀ i : grid0.Coords, EltTy.bits .f32 = 32 ∨ (Rect.block (s := S4096x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .f32 = 32 ∨ (Rect.block (s := S16x4096) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x4096.size a
  hwx0_5 : ∀ i : grid0.Coords, EltTy.bits .f32 = 32 ∨ (Rect.block (s := S8192x4096) S1024x512.size (cc0_transform_5 i) (hinb0_5 i)).WholeWords (EltTy.packing .f32)

variable [Facts₀]

def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S4096x4096, .f32⟩
  | .hbm, ⟨7, _⟩ => ⟨S4x2048x4096, .f32⟩
  | .hbm, ⟨8, _⟩ => ⟨S1x1x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one call of the kernel body leaves behind, case by case.

  The body keeps a running sum in a scratch block of 1024 x 512 entries. At a grid point whose last coordinate is 0 it
  first stores zeros there; at every point it then replaces the scratch by "scratch + (x block) · (w block + B block · A block)ᵀ";
  and at a point whose last coordinate is 3 it finally stores "scratch + bias row" into the output block.
  Each store covers its whole buffer, so what a buffer holds after the body is the last store's value, with every
  load before it read as the whole block that was loaded (a load of the scratch after the zero store reads the zeros).
-/
import proofs.«181846_j88931592831054_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

variable (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x16 .f32) (harg5 : arg5.IsWhole) (arg6 : Memref sig .tc .vmem S16x1024 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole)
  (x0 : Vec F S1024x1024 .f32) (x1 : Vec F S512x1024 .f32) (x2 : Vec F S512x16 .f32) (x3 : Vec F S16x1024 .f32) (x4 : Vec F S1x512 .f32)

/-- First point of a run of four (last grid coordinate 0): the scratch ends at "zeros + this block's product". -/
theorem scratch_first (hc0 : cond0_0 i) (hc1 : ¬cond0_1 i) :
    sout0_A_0 c i arg3 harg3 arg4 harg4 arg5 harg5 arg6 harg6 arg7 harg7 arg8 harg8 arg9 harg9 hc0 hc1 x0 x1 x2 x3 x4 = k0_pay2 x2 x3 x1 x0 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x512) hz, View.readCov_unit_zero (S := S1024x512) _ hz]
  simp only [View.readAt_eq_ld, harg3.read_unread, harg4.read_unread, harg5.read_unread, harg6.read_unread,
    View.ld_unit_zero (S := S1024x1024) hz, View.ld_unit_zero (S := S512x1024) hz, View.ld_unit_zero (S := S512x16) hz,
    View.ld_unit_zero (S := S16x1024) hz, View.ld_unit_zero (S := S1024x512) hz]

/-- A middle point (last grid coordinate 1 or 2): the scratch, found at `xs0`, ends at "`xs0` + this block's product". -/
theorem scratch_middle (hc0 : ¬cond0_0 i) (hc1 : ¬cond0_1 i) (xs0 : Vec F S1024x512 .f32) :
    sout0_B_0 c i arg3 harg3 arg4 harg4 arg5 harg5 arg6 harg6 arg7 harg7 arg8 harg8 arg9 harg9 hc0 hc1 x0 x1 x2 x3 x4 xs0 = k0_pay2 x2 x3 x1 x0 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, harg3.read_unread, harg4.read_unread, harg5.read_unread, harg6.read_unread, harg9.read_unread,
    View.ld_unit_zero (S := S1024x1024) hz, View.ld_unit_zero (S := S512x1024) hz, View.ld_unit_zero (S := S512x16) hz,
    View.ld_unit_zero (S := S16x1024) hz, View.ld_unit_zero (S := S1024x512) hz]

/-- Last point of a run of four (last grid coordinate 3): the scratch ends as at a middle point. -/
theorem scratch_last (hc0 : ¬cond0_0 i) (hc1 : cond0_1 i) (xs0 : Vec F S1024x512 .f32) :
    sout0_C_0 c i arg3 harg3 arg4 harg4 arg5 harg5 arg6 harg6 arg7 harg7 arg8 harg8 arg9 harg9 hc0 hc1 x0 x1 x2 x3 x4 xs0 = k0_pay2 x2 x3 x1 x0 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg9.read_unread,
    View.ld_unit_zero (S := S1024x1024) hz, View.ld_unit_zero (S := S512x1024) hz, View.ld_unit_zero (S := S512x16) hz,
    View.ld_unit_zero (S := S16x1024) hz, View.ld_unit_zero (S := S1024x512) hz]

/-- At that last point the output block is stored: the scratch as just updated, plus the bias row on every row. -/
theorem out_last (hc0 : ¬cond0_0 i) (hc1 : cond0_1 i) (xs0 : Vec F S1024x512 .f32) :
    out0_C_5 c i arg3 harg3 arg4 harg4 arg5 harg5 arg6 harg6 arg7 harg7 arg8 harg8 arg9 harg9 hc0 hc1 x0 x1 x2 x3 x4 xs0 = k0_pay3 (k0_pay2 x2 x3 x1 x0 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg7.read_unread, harg9.read_unread,
    View.ld_unit_zero (S := S1024x1024) hz, View.ld_unit_zero (S := S512x1024) hz, View.ld_unit_zero (S := S512x16) hz,
    View.ld_unit_zero (S := S16x1024) hz, View.ld_unit_zero (S := S1024x512) hz, View.ld_unit_zero (S := S1x512) hz,
    View.readCov_unit_zero (S := S1024x512) _ hz]

end Cert.KernelIdeal.Pieces

end
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.LibRowRowMatmul.lean ====
/-
  A matrix product against a transposed right operand, read at an index, on the extended reals.

  For dimension numbers that contract axis 1 of BOTH operands, keep axis 0 of each as the result's two axes (the left
  operand's first) and have no batch axis — an `[M, K]` array times the transpose of an `[N, K]` array —, the product
  into a zero accumulator has at `(a, v)` the entry `Σ_k lhs[a, k] · rhs[v, k]`, the sum taken over the `K` contraction
  positions in their natural order. The library states the product's entry as a sum over the record's own contraction
  index set, with the operands read at the record's index maps; here those maps are evaluated axis by axis for such a
  record and the sum is re-indexed by the one contraction coordinate.
-/
import Idealize.ShloMosaic.PureOps.Ideal.Laws
import Idealize.ShloMosaic.Lib.ValueIdx

noncomputable section

namespace Cert.RowRowMatmul

open Idealize.ShloMosaic Idealize.ShloMosaic.ValueIdx
open scoped BigOperators

variable {M K N : ℕ} (d : DotDims ⟨2, ![M, K]⟩ ⟨2, ![N, K]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's row coordinate is the result's column coordinate: axis 0 is the right operand's only kept
    axis, and it comes after the left operand's one kept axis among the result's. -/
theorem rhs_row (hlb : d.lhsBatch = []) (hrb : d.rhsBatch = []) (hln : d.lhsNonContracting = [0])
    (hrn : d.rhsNonContracting = [0]) (j : (⟨2, ![M, N]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[v, k]`. -/
theorem matmul_zero_apply {φ₁ φ₂ : FTy} (hlb : d.lhsBatch = []) (hrb : d.rhsBatch = []) (hln : d.lhsNonContracting = [0])
    (hrn : d.rhsNonContracting = [0]) (hlc : d.lhsContracting = [1]) (hrc : d.rhsContracting = [1])
    (prec : Option ContractPrecision) (lhs : FVec Ideal ⟨2, ![M, K]⟩ φ₁) (rhs : FVec Ideal ⟨2, ![N, K]⟩ φ₂) (a : Fin M) (v : Fin N) :
    matmul d prec lhs rhs (constant ⟨2, ![M, N]⟩ .f32 0x00000000#32) (ix2 a v) = ∑ k : Fin K, lhs (ix2 a k) * rhs (ix2 v k) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 v k := by
    funext ax; apply Fin.ext
    match ax with
    | ⟨0, _⟩ => exact rhs_row d hlb hrb hln hrn _ _
    | ⟨1, _⟩ => exact (d.rhsIdx_val_of_single hrc _ _).trans (contrEquiv1_symm_val d K hr hs k)
  rw [e1, e2]

end Cert.RowRowMatmul

end
-- ==== Proof.PayAt.lean ====
/-
  The body's three stored values read at an index, on the extended reals.

  The zero block is 0 everywhere. The accumulator update at (p, q) is the old entry plus
      Σ_kk x[p, kk] · (w[q, kk] + Σ_r B[q, r] · A[r, kk]),
  the sum over the block's 1024 contracted positions: a product against the transposed corrected-weight block, whose
  entries are themselves a plain product of the two low-rank factors' blocks added to the weight block. A change of
  float format is the identity on the extended reals, so the narrowed operands are the operands. The output block at
  (p, q) is the accumulator entry plus entry q of the bias row.
-/
import proofs.«181846_j88931592831054_1_alg».proof.Proof.Gen.KernelIdeal.Skeleton
import proofs.«181846_j88931592831054_1_alg».proof.Proof.LibPlainMatmul
import proofs.«181846_j88931592831054_1_alg».proof.Proof.LibRowRowMatmul
import Idealize.ShloMosaic.Lib.Pipeline.Value
import Idealize.ShloMosaic.Lib.ValueIdx
import Idealize.ShloMosaic.PureOps.Ideal.Laws

noncomputable section

namespace Cert.KernelIdeal.PayAt

open Cert.KernelIdeal Cert.KernelIdeal.Gen
open Idealize.ShloMosaic Idealize.ShloMosaic.ValueIdx
open scoped BigOperators

/-- The reset value: zero at every index. -/
theorem zero_apply (j : S1024x512.Idx) : k0_pay1 (F := Ideal) j = 0 := by
  unfold k0_pay1
  exact (congrFun (shapeCast_self _ _) j).trans Ideal.ofBits_zero_f32

/-- The corrected-weight block at (q, kk): the weight entry plus the low-rank product's. -/
theorem wadj_apply (v3 : Vec Ideal S512x16 .f32) (v5 : Vec Ideal S16x1024 .f32) (v8 : Vec Ideal S512x1024 .f32)
    (q : Fin 512) (kk : Fin 1024) :
    addf (F := Ideal) v8 (matmul (F := Ideal) dot_S512x16_S16x1024_S512x1024_1_0_0_1_n_n none (truncf (F := Ideal) .bf16 v3 bitsLt_bf16_f32)
        (truncf (F := Ideal) .bf16 v5 bitsLt_bf16_f32) (constant (F := Ideal) S512x1024 .f32 0x00000000#32)) (ix2 q kk)
      = v8 (ix2 q kk) + ∑ r : Fin 16, v3 (ix2 q r) * v5 (ix2 r kk) :=
  congrArg (v8 (ix2 q kk) + ·)
    (Cert.PlainMatmul.matmul_zero_apply dot_S512x16_S16x1024_S512x1024_1_0_0_1_n_n rfl rfl rfl rfl rfl rfl none
      (truncf (F := Ideal) .bf16 v3 bitsLt_bf16_f32) (truncf (F := Ideal) .bf16 v5 bitsLt_bf16_f32) q kk)

/-- The accumulator update at (p, q). -/
theorem update_apply (v3 : Vec Ideal S512x16 .f32) (v5 : Vec Ideal S16x1024 .f32) (v8 : Vec Ideal S512x1024 .f32)
    (v10 : Vec Ideal S1024x1024 .f32) (v15 : Vec Ideal S1024x512 .f32) (p : Fin 1024) (q : Fin 512) :
    k0_pay2 (F := Ideal) v3 v5 v8 v10 v15 (ix2 p q)
      = v15 (ix2 p q) + ∑ kk : Fin 1024, v10 (ix2 p kk) * (v8 (ix2 q kk) + ∑ r : Fin 16, v3 (ix2 q r) * v5 (ix2 r kk)) := by
  unfold k0_pay2
  refine (congrFun (shapeCast_self _ _) (ix2 p q)).trans ?_
  refine congrArg (v15 (ix2 p q) + ·) ?_
  refine (Cert.RowRowMatmul.matmul_zero_apply dot_S1024x1024_S512x1024_S1024x512_1_1_0_0_n_n rfl rfl rfl rfl rfl rfl none
    _ _ p q).trans ?_
  refine Finset.sum_congr rfl fun kk _ => ?_
  refine congrArg₂ (· * ·) (congrFun (shapeCast_self v10 _) (ix2 p kk)) ?_
  exact wadj_apply v3 v5 v8 q kk

/-- The output block at (p, q): the accumulator entry plus the bias row's entry q. -/
theorem out_apply (v23 : Vec Ideal S1024x512 .f32) (v24 : Vec Ideal S1x512 .f32) (p : Fin 1024) (q : Fin 512) :
    k0_pay3 (F := Ideal) v23 v24 (ix2 p q) = v23 (ix2 p q) + v24 (ix2 0 q) := by
  unfold k0_pay3
  refine congrArg (v23 (ix2 p q) + ·) ?_
  refine (broadcastTo_apply _ broadcasts_S1x512_S1024x512 (ix2 p q) (ix2 0 q) (fun a => ?_)).trans
    (congrFun (shapeCast_self v24 _) (ix2 0 q))
  match a with
  | ⟨0, _⟩ => show (0 : Nat) = if (1 : Nat) = 1 then 0 else _; rw [if_pos rfl]
  | ⟨1, _⟩ => show q.val = if (512 : Nat) = 1 then 0 else q.val; rw [if_neg (by decide)]

end Cert.KernelIdeal.PayAt

end
-- ==== Proof.LoraSpec.lean ====
/-
  A linear layer whose weight carries a low-rank correction, on the extended reals.

  The layer maps a row `x[p, ·]` of 4096 inputs to 4096 outputs,
      out[p, o] = (Σ_i x[p, i] · (W[o, i] + Σ_r B[o, r] · A[r, i])) + bias[o],
  the correction `B · A` having rank 16. Here the sum over the 4096 input positions is also written the way
  a blocked evaluation takes it: four blocks of 1024 consecutive positions, a running sum over the blocks taken so far.
  Addition of extended reals is commutative and associative (they form a commutative additive monoid), which is all
  that regrouping a finite sum needs: no entry has to be finite.
-/
import Idealize.ShloMosaic.PureOps.Ideal.Laws
import Idealize.ShloMosaic.Lib.ValueIdx

noncomputable section

namespace Cert.LoraLinear

open Idealize.ShloMosaic Idealize.ShloMosaic.ValueIdx
open scoped BigOperators

/-- Input position `kk` of the block numbered `kb` (blocks are counted modulo 4, so the position is always one of the
    4096): block `kb` holds the positions `1024·kb, …, 1024·kb + 1023`. -/
def col (kb : ℕ) (kk : Fin 1024) : Fin 4096 :=
  ⟨kk.val + 1024 * (kb % 4), by have := kk.isLt; have := Nat.mod_lt kb (show 0 < 4 by norm_num); omega⟩

theorem col_val (kb : ℕ) (kk : Fin 1024) : (col kb kk).val = kk.val + 1024 * (kb % 4) := rfl

/-- Blocks are counted modulo 4. -/
theorem col_mod (n : ℕ) (kk : Fin 1024) : col (n % 4) kk = col n kk :=
  Fin.ext (by rw [col_val, col_val, Nat.mod_mod])

/-- The 8 x 8 x 4 grid's points are numbered row-major, `n = 32·a + 4·b + k`. Point `n` works on the 1024 rows
    `1024·a, …` of the 8192: row `p` of its row block. -/
def rowOf (n : ℕ) (p : Fin 1024) : Fin 8192 :=
  ⟨p.val + 1024 * (n / 32 % 8), by have := p.isLt; have := Nat.mod_lt (n / 32) (show 0 < 8 by norm_num); omega⟩

/-- And on the 512 outputs `512·b, …` of the 4096: output `q` of its output block. -/
def outOf (n : ℕ) (q : Fin 512) : Fin 4096 :=
  ⟨q.val + 512 * (n / 4 % 8), by have := q.isLt; have := Nat.mod_lt (n / 4) (show 0 < 8 by norm_num); omega⟩

theorem rowOf_val (n : ℕ) (p : Fin 1024) : (rowOf n p).val = p.val + 1024 * (n / 32 % 8) := rfl
theorem outOf_val (n : ℕ) (q : Fin 512) : (outOf n q).val = q.val + 512 * (n / 4 % 8) := rfl

/-- A point that is not the first of its run of four works on the same rows and outputs as the point before it. -/
theorem rowOf_pred (n : ℕ) (h : (n + 1) % 4 ≠ 0) (p : Fin 1024) : rowOf n p = rowOf (n + 1) p :=
  Fin.ext (by rw [rowOf_val, rowOf_val]; congr 2; omega)
theorem outOf_pred (n : ℕ) (h : (n + 1) % 4 ≠ 0) (q : Fin 512) : outOf n q = outOf (n + 1) q :=
  Fin.ext (by rw [outOf_val, outOf_val]; congr 2; omega)

variable (X : (⟨2, ![8192, 4096]⟩ : Shape).Idx → EReal) (W : (⟨2, ![4096, 4096]⟩ : Shape).Idx → EReal)
  (A : (⟨2, ![16, 4096]⟩ : Shape).Idx → EReal) (B : (⟨2, ![4096, 16]⟩ : Shape).Idx → EReal)

/-- The corrected weight `W[o, i] + Σ_r B[o, r] · A[r, i]`. -/
def wadj (o i : Fin 4096) : EReal := W (ix2 o i) + ∑ r : Fin 16, B (ix2 o r) * A (ix2 r i)

/-- One product of the layer's sum: input position `i` of row `p` against output `o`'s corrected weight. -/
def term (p : Fin 8192) (o i : Fin 4096) : EReal := X (ix2 p i) * wadj W A B o i

/-- The sum over the first `n` blocks of input positions. -/
def blockSum (n : ℕ) (p : Fin 8192) (o : Fin 4096) : EReal :=
  ∑ kb ∈ Finset.range n, ∑ kk : Fin 1024, term X W A B p o (col kb kk)

theorem blockSum_zero (p : Fin 8192) (o : Fin 4096) : blockSum X W A B 0 p o = 0 := by
  unfold blockSum; rw [Finset.range_zero, Finset.sum_empty]

/-- One more block: the sum so far plus that block's 1024 products. -/
theorem blockSum_succ (n : ℕ) (p : Fin 8192) (o : Fin 4096) :
    blockSum X W A B (n + 1) p o = blockSum X W A B n p o + ∑ kk : Fin 1024, term X W A B p o (col n kk) := by
  unfold blockSum; rw [Finset.sum_range_succ]

/-- The same step at grid point `n`, whose block is number `n % 4`. -/
theorem blockSum_step (n : ℕ) (p : Fin 8192) (o : Fin 4096) :
    blockSum X W A B (n % 4 + 1) p o = blockSum X W A B (n % 4) p o + ∑ kk : Fin 1024, term X W A B p o (col n kk) := by
  rw [blockSum_succ]
  exact congrArg (blockSum X W A B (n % 4) p o + ·) (Finset.sum_congr rfl fun kk _ => by rw [col_mod])

/-- Summing a function of the 4096 positions block by block, four blocks of 1024, is summing it over all of them: the
    pairs (block, place in the block) are the positions, each once. -/
theorem sum_blocks (f : Fin 4096 → EReal) :
    ∑ kb ∈ Finset.range 4, ∑ kk : Fin 1024, f (col kb kk) = ∑ i : Fin 4096, f i := by
  rw [← Fin.sum_univ_eq_sum_range (fun kb => ∑ kk : Fin 1024, f (col kb kk)) 4]
  rw [← Fintype.sum_prod_type' (fun (kb : Fin 4) (kk : Fin 1024) => f (col kb.val kk))]
  rw [← Equiv.sum_comp (finProdFinEquiv (m := 4) (n := 1024)) f]
  refine Finset.sum_congr rfl fun x _ => congrArg f (Fin.ext ?_)
  show x.2.val + 1024 * (x.1.val % 4) = x.2.val + 1024 * x.1.val
  rw [Nat.mod_eq_of_lt x.1.isLt]

/-- All four blocks: the whole sum. -/
theorem blockSum_four (p : Fin 8192) (o : Fin 4096) :
    blockSum X W A B 4 p o = ∑ i : Fin 4096, term X W A B p o i :=
  sum_blocks (term X W A B p o)

/-- The layer on a matrix of 8192 rows: `out[p, o]`. -/
def lin2 (bias : (⟨1, ![4096]⟩ : Shape).Idx → EReal) : (⟨2, ![8192, 4096]⟩ : Shape).Idx → EReal :=
  fun j => (∑ i : Fin 4096, term X W A B (j 0) (j 1) i) + bias (ix1 (j 1))

/-- The layer on a batch of 4 sequences of 2048 rows: `out[b, s, o]`, each row `(b, s)` treated alone. -/
def lin3 (X3 : (⟨3, ![4, 2048, 4096]⟩ : Shape).Idx → EReal) (bias : (⟨1, ![4096]⟩ : Shape).Idx → EReal) :
    (⟨3, ![4, 2048, 4096]⟩ : Shape).Idx → EReal :=
  fun j => (∑ i : Fin 4096, X3 (ix3 (j 0) (j 1) i) * wadj W A B (j 2) i) + bias (ix1 (j 2))

end Cert.LoraLinear

end
-- ==== Proof.Blocks.lean ====
/-
  What the kernel's windows show of the arrays, point by point.

  The grid has 8 x 8 x 4 points, numbered row-major: point `n` has coordinates `(n / 32, n / 4 % 8, n % 4)`. At point
  `n` the body sees: of the input matrix (8192 x 4096) the 1024 x 1024 block at block-row `n / 32`, block-column
  `n % 4`; of the weight (4096 x 4096) the 512 x 1024 block at block-row `n / 4 % 8`, block-column `n % 4`; of the
  left low-rank factor (4096 x 16) the 512 rows of block `n / 4 % 8`; of the right low-rank factor (16 x 4096) the 1024
  columns of block `n % 4`; of the bias row (1 x 4096) the 512 entries of block `n / 4 % 8`. An entry of a block is
  the array's entry at (block index) x (block size) + (place in the block), axis by axis.
  The input matrix and the bias row are reshapes the host makes before the call: of the 4 x 2048 x 4096 input (rows
  `(b, s)` flattened to `2048·b + s`) and of the 4096-vector of biases.
-/
import proofs.«181846_j88931592831054_1_alg».proof.Proof.Gen.KernelIdeal.Frame
import proofs.«181846_j88931592831054_1_alg».proof.Proof.LoraSpec
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Cert.LoraLinear
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The windows' block indices at point `t`, from the printed index maps, decided over the grid. -/
theorem idx_facts : ∀ t : Fin cfg0.N,
    win0_0.index t (0 : Fin 2) = t.val / 32 % 8 ∧ win0_0.index t (1 : Fin 2) = t.val % 4
    ∧ win0_1.index t (0 : Fin 2) = t.val / 4 % 8 ∧ win0_1.index t (1 : Fin 2) = t.val % 4
    ∧ win0_2.index t (0 : Fin 2) = t.val / 4 % 8 ∧ win0_2.index t (1 : Fin 2) = 0
    ∧ win0_3.index t (0 : Fin 2) = 0 ∧ win0_3.index t (1 : Fin 2) = t.val % 4
    ∧ win0_4.index t (0 : Fin 2) = 0 ∧ win0_4.index t (1 : Fin 2) = t.val / 4 % 8
    ∧ win0_5.index t (0 : Fin 2) = t.val / 32 % 8 ∧ win0_5.index t (1 : Fin 2) = t.val / 4 % 8 :=
  (by decide +kernel : ∀ t : Fin grid0.N, _)

/-- The five input blocks at point `t` and the arrays they are cut from, as the region finds them. -/
abbrev xblk (c : Dev nD) (t : Fin cfg0.N) : Vec F S1024x1024 .f32 := iblk m c 0 t
abbrev wblk (c : Dev nD) (t : Fin cfg0.N) : Vec F S512x1024 .f32 := iblk m c 1 t
abbrev bblk (c : Dev nD) (t : Fin cfg0.N) : Vec F S512x16 .f32 := iblk m c 2 t
abbrev ablk (c : Dev nD) (t : Fin cfg0.N) : Vec F S16x1024 .f32 := iblk m c 3 t
abbrev biasblk (c : Dev nD) (t : Fin cfg0.N) : Vec F S1x512 .f32 := iblk m c 4 t
abbrev Xarr (c : Dev nD) : Vec F S8192x4096 .f32 := V m c main_v0
abbrev Warr (c : Dev nD) : Vec F S4096x4096 .f32 := V m c main_arg1
abbrev Barr (c : Dev nD) : Vec F S4096x16 .f32 := V m c main_arg4
abbrev Aarr (c : Dev nD) : Vec F S16x4096 .f32 := V m c main_arg3
abbrev biasRow (c : Dev nD) : Vec F S1x4096 .f32 := V m c main_v1

theorem xblk_apply (c : Dev nD) (t : Fin cfg0.N) (p kk : Fin 1024) :
    xblk m c t (ix2 p kk) = Xarr m c (ix2 (rowOf t.val p) (col t.val kk)) := by
  obtain ⟨e0, e1, -⟩ := idx_facts t
  show Xarr m c (((cfg0.win 0).blk t).view.emb (ix2 p kk)) = _
  refine congrArg (Xarr m c) (funext fun a => Fin.ext ?_)
  match a with
  | ⟨0, _⟩ => show win0_0.index t (0 : Fin 2) * 1024 + 1 * p.val = p.val + 1024 * (t.val / 32 % 8); rw [e0]; omega
  | ⟨1, _⟩ => show win0_0.index t (1 : Fin 2) * 1024 + 1 * kk.val = kk.val + 1024 * (t.val % 4); rw [e1]; omega

theorem wblk_apply (c : Dev nD) (t : Fin cfg0.N) (q : Fin 512) (kk : Fin 1024) :
    wblk m c t (ix2 q kk) = Warr m c (ix2 (outOf t.val q) (col t.val kk)) := by
  obtain ⟨-, -, e0, e1, -⟩ := idx_facts t
  show Warr m c (((cfg0.win 1).blk t).view.emb (ix2 q kk)) = _
  refine congrArg (Warr m c) (funext fun a => Fin.ext ?_)
  match a with
  | ⟨0, _⟩ => show win0_1.index t (0 : Fin 2) * 512 + 1 * q.val = q.val + 512 * (t.val / 4 % 8); rw [e0]; omega
  | ⟨1, _⟩ => show win0_1.index t (1 : Fin 2) * 1024 + 1 * kk.val = kk.val + 1024 * (t.val % 4); rw [e1]; omega

theorem bblk_apply (c : Dev nD) (t : Fin cfg0.N) (q : Fin 512) (r : Fin 16) :
    bblk m c t (ix2 q r) = Barr m c (ix2 (outOf t.val q) r) := by
  obtain ⟨-, -, -, -, e0, e1, -⟩ := idx_facts t
  show Barr m c (((cfg0.win 2).blk t).view.emb (ix2 q r)) = _
  refine congrArg (Barr m c) (funext fun a => Fin.ext ?_)
  match a with
  | ⟨0, _⟩ => show win0_2.index t (0 : Fin 2) * 512 + 1 * q.val = q.val + 512 * (t.val / 4 % 8); rw [e0]; omega
  | ⟨1, _⟩ => show win0_2.index t (1 : Fin 2) * 16 + 1 * r.val = r.val; rw [e1]; omega

theorem ablk_apply (c : Dev nD) (t : Fin cfg0.N) (r : Fin 16) (kk : Fin 1024) :
    ablk m c t (ix2 r kk) = Aarr m c (ix2 r (col t.val kk)) := by
  obtain ⟨-, -, -, -, -, -, e0, e1, -⟩ := idx_facts t
  show Aarr m c (((cfg0.win 3).blk t).view.emb (ix2 r kk)) = _
  refine congrArg (Aarr m c) (funext fun a => Fin.ext ?_)
  match a with
  | ⟨0, _⟩ => show win0_3.index t (0 : Fin 2) * 16 + 1 * r.val = r.val; rw [e0]; omega
  | ⟨1, _⟩ => show win0_3.index t (1 : Fin 2) * 1024 + 1 * kk.val = kk.val + 1024 * (t.val % 4); rw [e1]; omega

theorem biasblk_apply (c : Dev nD) (t : Fin cfg0.N) (q : Fin 512) :
    biasblk m c t (ix2 0 q) = biasRow m c (ix2 0 (outOf t.val q)) := by
  obtain ⟨-, -, -, -, -, -, -, -, e0, e1, -⟩ := idx_facts t
  show biasRow m c (((cfg0.win 4).blk t).view.emb (ix2 0 q)) = _
  refine congrArg (biasRow m c) (funext fun a => Fin.ext ?_)
  match a with
  | ⟨0, _⟩ => show win0_4.index t (0 : Fin 2) * 1 + 1 * 0 = 0; rw [e0]
  | ⟨1, _⟩ => show win0_4.index t (1 : Fin 2) * 512 + 1 * q.val = q.val + 512 * (t.val / 4 % 8); rw [e1]; omega

/-- The input matrix is the host's reshape of the three-axis input. -/
theorem Xarr_eq (c : Dev nD) :
    Xarr m c = shapeCast S8192x4096 (m ((c : Thread nD τ).loc main_arg0)) shapeCasts_S4x2048x4096_S8192x4096 := by
  show StableHlo.after hostOps0 (fun b => m (c, b)) (Proc.devRef .tc main_v0) = _
  after_results
  rfl

/-- The bias row is the host's reshape of the bias vector. -/
theorem biasRow_eq (c : Dev nD) :
    biasRow m c = shapeCast S1x4096 (m ((c : Thread nD τ).loc main_arg2)) shapeCasts_S4096_S1x4096 := by
  show StableHlo.after hostOps0 (fun b => m (c, b)) (Proc.devRef .tc main_v1) = _
  after_results
  rfl

/-- Row `2048·b + s` of the input matrix is row `(b, s)` of the three-axis input. -/
theorem Xarr_apply (c : Dev nD) (b : Fin 4) (s : Fin 2048) (i : Fin 4096) (p : Fin 8192) (hp : p.val = 2048 * b.val + s.val) :
    Xarr m c (ix2 p i) = (m ((c : Thread nD τ).loc main_arg0) : Vec F S4x2048x4096 .f32) (ix3 b s i) := by
  rw [Xarr_eq]
  refine shapeCast_apply _ _ (ix2 p i) (ix3 b s i) ?_
  rw [Shape.rowMajor_val_two, Shape.rowMajor_val_three]
  show (b.val * 2048 + s.val) * 4096 + i.val = p.val * 4096 + i.val
  rw [hp]; ring

/-- Entry `o` of the bias row is entry `o` of the bias vector. -/
theorem biasRow_apply (c : Dev nD) (o : Fin 4096) :
    biasRow m c (ix2 0 o) = (m ((c : Thread nD τ).loc main_arg2) : Vec F S4096 .f32) (ix1 o) := by
  rw [biasRow_eq]
  refine shapeCast_apply _ _ (ix2 0 o) (ix1 o) ?_
  rw [Shape.rowMajor_val_two, Shape.rowMajor_val_one]
  show o.val = 0 * 4096 + o.val
  omega

end Cert.KernelIdeal.Blocks

end
-- ==== Proof.Accum.lean ====
/-
  The running sum across the grid.

  Grid points are visited in their row-major order, so the four points that share a row block and an output block
  (last coordinate 0, 1, 2, 3) come one after the other, and the scratch block carries the sum between them: after the
  point with last coordinate `k` it holds, at (p, q), the layer's products summed over the first `k + 1` blocks of input
  positions, for the point's row `p` and output `q`. The first point of the four starts from zero, each later one adds
  its block to what the point before left (the same rows and outputs), and the fourth, having summed all 4096 positions,
  stores the sum plus the bias into the output block.
-/
import proofs.«181846_j88931592831054_1_alg».proof.Proof.Pieces
import proofs.«181846_j88931592831054_1_alg».proof.Proof.PayAt
import proofs.«181846_j88931592831054_1_alg».proof.Proof.Blocks

noncomputable section

namespace Cert.KernelIdeal.Accum

open Cert.KernelIdeal Cert.KernelIdeal.Gen Cert.KernelIdeal.Blocks Cert.LoraLinear
open Idealize.ShloMosaic Idealize.ShloMosaic.TcCoe Idealize.ShloMosaic.ValueIdx Idealize.SL.Sem
open scoped BigOperators

section AnyInstance

variable {F : FTy → Type} [FloatOps F]
variable (m : (ℓ : Loc nD τ sig) → Buf (Elt F) ℓ)

/-- What the point before `t` left in the scratch. -/
abbrev before (c : Dev nD) (t : Fin cfg0.N) : Vec F S1024x512 .f32 :=
  (outsAt0 m c (t.val - 1) (Nat.lt_of_le_of_lt (Nat.sub_le _ _) t.isLt)).2

/-- The scratch after a point with last coordinate 0: the update of the zero block by the point's blocks. -/
theorem scratch_at_first (c : Dev nD) (t : Fin cfg0.N) (h0 : t.val % 4 = 0) (h1 : ¬t.val % 4 = 3) :
    (outsAt0 m c t.val t.isLt).2 = k0_pay2 (bblk m c t) (ablk m c t) (wblk m c t) (xblk m c t) (k0_pay1 (F := F)) := by
  rw [outsAt0_A m c t h0 h1]
  dsimp only
  exact Pieces.scratch_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) ((hcond0_0 t).mpr h0) (fun h => h1 ((hcond0_1 t).mp h))

/-- After a point with last coordinate 1 or 2: the update of what the point before left. -/
theorem scratch_at_middle (c : Dev nD) (t : Fin cfg0.N) (h0 : ¬t.val % 4 = 0) (h1 : ¬t.val % 4 = 3) :
    (outsAt0 m c t.val t.isLt).2 = k0_pay2 (bblk m c t) (ablk m c t) (wblk m c t) (xblk m c t) (before m c t) := by
  rw [outsAt0_B m c t h0 h1]
  dsimp only
  exact Pieces.scratch_middle (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (fun h => h0 ((hcond0_0 t).mp h)) (fun h => h1 ((hcond0_1 t).mp h)) (before m c t)

/-- After a point with last coordinate 3: the same update, -/
theorem scratch_at_last (c : Dev nD) (t : Fin cfg0.N) (h0 : ¬t.val % 4 = 0) (h1 : t.val % 4 = 3) :
    (outsAt0 m c t.val t.isLt).2 = k0_pay2 (bblk m c t) (ablk m c t) (wblk m c t) (xblk m c t) (before m c t) := by
  rw [outsAt0_C m c t h0 h1]
  dsimp only
  exact Pieces.scratch_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (fun h => h0 ((hcond0_0 t).mp h)) ((hcond0_1 t).mpr h1) (before m c t)

/-- and the output block holds that updated scratch plus the bias row. -/
theorem out_at_last (c : Dev nD) (t : Fin cfg0.N) (h0 : ¬t.val % 4 = 0) (h1 : t.val % 4 = 3) :
    (outsAt0 m c t.val t.isLt).1
      = k0_pay3 (k0_pay2 (bblk m c t) (ablk m c t) (wblk m c t) (xblk m c t) (before m c t)) (biasblk m c t) := by
  rw [outsAt0_C m c t h0 h1]
  dsimp only
  exact Pieces.out_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (fun h => h0 ((hcond0_0 t).mp h)) ((hcond0_1 t).mpr h1) (before m c t)

end AnyInstance

variable (m : (ℓ : Loc nD τ sig) → Buf (Elt Ideal) ℓ)

/-- The products of point `n`'s blocks at (p, q) are the layer's products for row `rowOf n p`, output `outOf n q`, over
    the input positions of block `n % 4`: each block entry is the array's entry at the point's offsets. -/
theorem product_eq (c : Dev nD) (n : ℕ) (h : n < cfg0.N) (p : Fin 1024) (q : Fin 512) :
    (∑ kk : Fin 1024, xblk m c ⟨n, h⟩ (ix2 p kk)
        * (wblk m c ⟨n, h⟩ (ix2 q kk) + ∑ r : Fin 16, bblk m c ⟨n, h⟩ (ix2 q r) * ablk m c ⟨n, h⟩ (ix2 r kk)))
      = ∑ kk : Fin 1024, term (Xarr m c) (Warr m c) (Aarr m c) (Barr m c) (rowOf n p) (outOf n q) (col n kk) := by
  refine Finset.sum_congr rfl fun kk _ => ?_
  unfold term wadj
  rw [xblk_apply m c ⟨n, h⟩ p kk, wblk_apply m c ⟨n, h⟩ q kk]
  refine congrArg (fun z => Xarr m c (ix2 (rowOf n p) (col n kk)) * (Warr m c (ix2 (outOf n q) (col n kk)) + z)) ?_
  refine Finset.sum_congr rfl fun r _ => ?_
  rw [bblk_apply m c ⟨n, h⟩ q r, ablk_apply m c ⟨n, h⟩ r kk]

/-- One update at point `n`, at (p, q): the old entry plus the point's block of products. -/
theorem update_eq (c : Dev nD) (n : ℕ) (h : n < cfg0.N) (old : Vec Ideal S1024x512 .f32) (p : Fin 1024) (q : Fin 512) :
    k0_pay2 (F := Ideal) (bblk m c ⟨n, h⟩) (ablk m c ⟨n, h⟩) (wblk m c ⟨n, h⟩) (xblk m c ⟨n, h⟩) old (ix2 p q)
      = old (ix2 p q)
        + ∑ kk : Fin 1024, term (Xarr m c) (Warr m c) (Aarr m c) (Barr m c) (rowOf n p) (outOf n q) (col n kk) :=
  (PayAt.update_apply (bblk m c ⟨n, h⟩) (ablk m c ⟨n, h⟩) (wblk m c ⟨n, h⟩) (xblk m c ⟨n, h⟩) old p q).trans
    (congrArg (old (ix2 p q) + ·) (product_eq m c n h p q))

/-- THE RUNNING SUM: after point `n` the scratch holds, at (p, q), the products over the first `n % 4 + 1` blocks of
    input positions — by induction on the point. -/
theorem scratch_eq (c : Dev nD) : ∀ (n : ℕ) (h : n < cfg0.N) (p : Fin 1024) (q : Fin 512),
    (outsAt0 m c n h).2 (ix2 p q)
      = blockSum (Xarr m c) (Warr m c) (Aarr m c) (Barr m c) (n % 4 + 1) (rowOf n p) (outOf n q) := by
  have first : ∀ (n : ℕ) (h : n < cfg0.N) (h0 : n % 4 = 0) (p : Fin 1024) (q : Fin 512),
      (outsAt0 m c n h).2 (ix2 p q)
        = blockSum (Xarr m c) (Warr m c) (Aarr m c) (Barr m c) (n % 4 + 1) (rowOf n p) (outOf n q) := by
    intro n h h0 p q
    refine (congrFun (scratch_at_first m c ⟨n, h⟩ h0 (by show ¬n % 4 = 3; omega)) (ix2 p q)).trans ?_
    refine (update_eq m c n h _ p q).trans ?_
    rw [blockSum_step, PayAt.zero_apply, h0, blockSum_zero]
  intro n
  induction n with
  | zero => exact fun h p q => first 0 h rfl p q
  | succ n ih =>
    intro h p q
    by_cases h0 : (n + 1) % 4 = 0
    · exact first (n + 1) h h0 p q
    · have hstep : (outsAt0 m c (n + 1) h).2
          = k0_pay2 (F := Ideal) (bblk m c ⟨n + 1, h⟩) (ablk m c ⟨n + 1, h⟩) (wblk m c ⟨n + 1, h⟩) (xblk m c ⟨n + 1, h⟩)
              (outsAt0 m c n (Nat.lt_of_succ_lt h)).2 := by
        by_cases h1 : (n + 1) % 4 = 3
        · exact scratch_at_last m c ⟨n + 1, h⟩ h0 h1
        · exact scratch_at_middle m c ⟨n + 1, h⟩ h0 h1
      refine (congrFun hstep (ix2 p q)).trans ?_
      refine (update_eq m c (n + 1) h _ p q).trans ?_
      rw [blockSum_step, ih (Nat.lt_of_succ_lt h) p q, rowOf_pred n h0, outOf_pred n h0,
        show n % 4 + 1 = (n + 1) % 4 by omega]

/-- THE OUTPUT BLOCK: at a point with last coordinate 3 the stored block holds, at (p, q), the layer's value for the
    point's row `p` and output `q`: all four blocks of products, plus the bias. -/
theorem out_eq (c : Dev nD) (t : Fin cfg0.N) (h3 : t.val % 4 = 3) (p : Fin 1024) (q : Fin 512) :
    (outsAt0 m c t.val t.isLt).1 (ix2 p q)
      = lin2 (Xarr m c) (Warr m c) (Aarr m c) (Barr m c) (m ((c : Thread nD τ).loc main_arg2))
          (ix2 (rowOf t.val p) (outOf t.val q)) := by
  have h0 : ¬t.val % 4 = 0 := by omega
  rw [out_at_last m c t h0 h3, ← scratch_at_last m c t h0 h3]
  refine (PayAt.out_apply _ _ p q).trans ?_
  rw [scratch_eq m c t.val t.isLt p q, h3, blockSum_four, biasblk_apply m c t q, biasRow_apply m c (outOf t.val q)]
  rfl

end Cert.KernelIdeal.Accum

end
-- ==== Proof.Final.lean ====
/-
  The kernel's result, as one function of its arguments.

  Every fourth grid point (last coordinate 3) writes its output block back; those 64 blocks of 1024 x 512 tile the
  8192 x 4096 result matrix, and each holds the layer's values at its rows and outputs. So the matrix ends holding the
  layer of the flattened input. The host then reshapes it to 4 x 2048 x 4096: entry `(b, s, o)` is the matrix's entry at
  row `2048·b + s`, which is the layer's value for row `(b, s)` of the three-axis input.
-/
import proofs.«181846_j88931592831054_1_alg».proof.Proof.Accum

noncomputable section

namespace Cert.KernelIdeal.Final

open Cert.KernelIdeal Cert.KernelIdeal.Gen Cert.KernelIdeal.Blocks Cert.LoraLinear
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The layer of the arrays as the region finds them: what the result matrix ends holding. -/
abbrev outMat (c : Dev nD) : Vec Ideal S8192x4096 .f32 :=
  lin2 (Xarr m c) (Warr m c) (Aarr m c) (Barr m c) (m ((c : Thread nD τ).loc main_arg2))

/-- What a writing point `t` writes back is block `t` of that matrix. -/
theorem flushed_eq (c : Dev nD) (t : Fin cfg0.N) (hf : (cfg0.win 5).flush t = true) :
    (dats m 0 c).flushed 5 t = ((cfg0.win 5).blk t).view.read (Elt Ideal) (outMat m c) := by
  have h3 : t.val % 4 = 3 := (flush0_5 t).mp hf
  obtain ⟨-, -, -, -, -, -, -, -, -, -, e0, e1⟩ := idx_facts t
  show (cfg0.win 5).cut (grid0.coords t) ((dats m 0 c).after 5 t) = _
  rw [after0_5]
  funext j
  obtain ⟨p, q, rfl⟩ : ∃ (p : Fin 1024) (q : Fin 512), j = ix2 p q := ⟨j 0, j 1, eq_ix2 j⟩
  show (outsAt0 m c t.val t.isLt).1 (ix2 p q) = outMat m c (((cfg0.win 5).blk t).view.emb (ix2 p q))
  rw [Accum.out_eq m c t h3 p q]
  refine congrArg (outMat m c) (funext fun a => Fin.ext ?_)
  match a with
  | ⟨0, _⟩ => show p.val + 1024 * (t.val / 32 % 8) = win0_5.index t (0 : Fin 2) * 1024 + 1 * p.val; rw [e0]; omega
  | ⟨1, _⟩ => show q.val + 512 * (t.val / 4 % 8) = win0_5.index t (1 : Fin 2) * 512 + 1 * q.val; rw [e1]; omega

/-- An index of the matrix is in point `t`'s block iff each coordinate is in the block's range on its axis. -/
theorem mem_blk (t : Fin cfg0.N) (i : S8192x4096.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v2).slice (win0_5.rect t)).set ↔ _
  rw [View.set_slice_whole, Rect.mem_set_unit]
  exact Iff.rfl

/-- The written blocks cover the matrix: entry (r, o) is in the block of the point `(r / 1024, o / 512, 3)`. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 256 := N_0
  have ht : 32 * ((i 0).val / 1024) + 4 * ((i 1).val / 512) + 3 < cfg0.N := by rw [hN]; omega
  obtain ⟨-, -, -, -, -, -, -, -, -, -, e0, e1⟩ := idx_facts ⟨_, ht⟩
  refine ⟨⟨_, ht⟩, (flush0_5 ⟨_, ht⟩).mpr (by show (32 * ((i 0).val / 1024) + 4 * ((i 1).val / 512) + 3) % 4 = 3; omega), ?_⟩
  rw [mem_blk]
  intro a
  match a with
  | ⟨0, _⟩ =>
    show win0_5.index ⟨_, ht⟩ (0 : Fin 2) * 1024 ≤ (i 0).val ∧ (i 0).val < win0_5.index ⟨_, ht⟩ (0 : Fin 2) * 1024 + 1024
    rw [e0]
    show (32 * ((i 0).val / 1024) + 4 * ((i 1).val / 512) + 3) / 32 % 8 * 1024 ≤ (i 0).val
      ∧ (i 0).val < (32 * ((i 0).val / 1024) + 4 * ((i 1).val / 512) + 3) / 32 % 8 * 1024 + 1024
    omega
  | ⟨1, _⟩ =>
    show win0_5.index ⟨_, ht⟩ (1 : Fin 2) * 512 ≤ (i 1).val ∧ (i 1).val < win0_5.index ⟨_, ht⟩ (1 : Fin 2) * 512 + 512
    rw [e1]
    show (32 * ((i 0).val / 1024) + 4 * ((i 1).val / 512) + 3) / 4 % 8 * 512 ≤ (i 1).val
      ∧ (i 1).val < (32 * ((i 0).val / 1024) + 4 * ((i 1).val / 512) + 3) / 4 % 8 * 512 + 512
    omega

/-- So the result matrix ends holding the layer of the arrays as the region finds them. -/
theorem final (c : Dev nD) : (dats m 0 c).arrAt 5 cfg0.N = outMat m c :=
  (dats m 0 c).arrAt_eq_of_cover 5 (outMat m c) (flushed_eq m c) cover

/-- The kernel's five arguments as launched. -/
abbrev argX (c : Dev nD) : Vec Ideal S4x2048x4096 .f32 := m ((c : Thread nD τ).loc main_arg0)
abbrev argW (c : Dev nD) : Vec Ideal S4096x4096 .f32 := m ((c : Thread nD τ).loc main_arg1)
abbrev argBias (c : Dev nD) : Vec Ideal S4096 .f32 := m ((c : Thread nD τ).loc main_arg2)
abbrev argA (c : Dev nD) : Vec Ideal S16x4096 .f32 := m ((c : Thread nD τ).loc main_arg3)
abbrev argB (c : Dev nD) : Vec Ideal S4096x16 .f32 := m ((c : Thread nD τ).loc main_arg4)

/-- The layer of the kernel's five arguments, on the three-axis input. -/
abbrev result (c : Dev nD) : Vec Ideal S4x2048x4096 .f32 :=
  lin3 (argW m c) (argA m c) (argB m c) (argX m c) (argBias m c)

/-- The matrix read at row `2048·b + s` is the layer's value for row `(b, s)` of the three-axis input: the weight and the
    two low-rank factors reach the region as launched, and the input matrix is the reshape of the three-axis input. -/
theorem outMat_apply (c : Dev nD) (b : Fin 4) (s : Fin 2048) (o : Fin 4096) (p : Fin 8192) (hp : p.val = 2048 * b.val + s.val) :
    outMat m c (ix2 p o) = result m c (ix3 b s o) := by
  show (∑ i : Fin 4096, Xarr m c (ix2 p i) * wadj (Warr m c) (Aarr m c) (Barr m c) o i) + argBias m c (ix1 o)
    = (∑ i : Fin 4096, argX m c (ix3 b s i) * wadj (argW m c) (argA m c) (argB m c) o i) + argBias m c (ix1 o)
  rw [show Warr m c = argW m c from V_main_arg1 m c, show Aarr m c = argA m c from V_main_arg3 m c,
    show Barr m c = argB m c from V_main_arg4 m c]
  refine congrArg (· + argBias m c (ix1 o)) (Finset.sum_congr rfl fun i _ => ?_)
  exact congrArg (· * wadj (argW m c) (argA m c) (argB m c) o i) (Xarr_apply m c b s i p hp)

/-- The host's reshape of the result matrix: the kernel's result is the layer of its arguments. -/
theorem result_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have hw : (Pipeline.withArrays spec0 c (V0 m c) (fun w => (dats m 0 c).arrAt w cfg0.N) (Proc.devRef .tc main_v2)
      : Vec Ideal S8192x4096 .f32) = outMat m c :=
    (Pipeline.withArrays_arr spec0 launch0.win.arr_inj c _ _ 5).trans (final m c)
  funext j
  obtain ⟨b, s, o, rfl⟩ : ∃ (b : Fin 4) (s : Fin 2048) (o : Fin 4096), j = ix3 b s o := ⟨j 0, j 1, j 2, eq_ix3 j⟩
  show shapeCast S4x2048x4096 (Pipeline.withArrays spec0 c (V0 m c) (fun w => (dats m 0 c).arrAt w cfg0.N) (Proc.devRef .tc main_v2)
      : Vec Ideal S8192x4096 .f32) shapeCasts_S8192x4096_S4x2048x4096 (ix3 b s o) = _
  refine (congrFun (congrArg (fun z : Vec Ideal S8192x4096 .f32 => shapeCast S4x2048x4096 z shapeCasts_S8192x4096_S4x2048x4096) hw)
    (ix3 b s o)).trans ?_
  have hb := b.isLt
  have hs := s.isLt
  refine (shapeCast_apply (outMat m c) _ (ix3 b s o) (ix2 (⟨2048 * b.val + s.val, by omega⟩ : Fin 8192) o) ?_).trans
    (outMat_apply m c b s o _ rfl)
  rw [Shape.rowMajor_val_two, Shape.rowMajor_val_three]
  show (2048 * b.val + s.val) * 4096 + o.val = (b.val * 2048 + s.val) * 4096 + o.val
  ring

/-- THE RUN, READ: every weakly fair execution of the kernel's program terminates with its result array at the layer
    of its five arguments, and the arguments as launched. -/
theorem run : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 2).trans (((dats m 0 c).arrAt_in 2 rfl _).trans ((A_eq m c 2).trans (V_main_arg4 m c)))⟩)
    (run_main m ρ)

end Cert.KernelIdeal.Final

end
-- ==== Proof.RefValue.lean ====
/-
  The reference computes the layer.

  The reference forms the corrected weight `W + B · A` once (a product of the two low-rank factors, then a sum), contracts
  each input row against every row of it, and adds the bias broadcast over the batch and the sequence. Read at an index
  `(b, s, o)` on the extended reals this is `(Σ_i x[b, s, i] · (W[o, i] + Σ_r B[o, r] · A[r, i])) + bias[o]`: the two
  contractions are plain sums, the broadcasts read the bias at the last coordinate.
-/
import proofs.«181846_j88931592831054_1_alg».proof.Proof.Gen.ReferenceIdeal.Read
import proofs.«181846_j88931592831054_1_alg».proof.Proof.LoraSpec

noncomputable section

namespace Cert.ReferenceIdeal.RefValue

open Cert.ReferenceIdeal Cert.ReferenceIdeal.Read
open Idealize.ShloMosaic Idealize.ShloMosaic.ValueIdx
open scoped BigOperators

/-- The reference's result, as a function of its five arguments, is the layer. -/
theorem result_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S16x4096, .f32⟩ : BufTy).Contents (Elt Ideal))
    (x4 : (⟨S4096x16, .f32⟩ : BufTy).Contents (Elt Ideal)) :
    val_main_v5 (F := Ideal) x0 x1 x2 x3 x4 = Cert.LoraLinear.lin3 x1 x3 x4 x0 x2 := by
  funext i
  obtain ⟨b, s, o, rfl⟩ : ∃ (b : Fin 4) (s : Fin 2048) (o : Fin 4096), i = ix3 b s o := ⟨i 0, i 1, i 2, eq_ix3 i⟩
  have eb : idx_main_v3 (idx_main_v4 (ix3 b s o)) = ix1 o := funext fun a => Fin.ext (by match a with | ⟨0, _⟩ => rfl)
  have el : ∀ k : Fin 4096, lidx_main_v2 (ix3 b s o) k = ix3 b s k := fun k => funext fun a => Fin.ext (by
    match a with
    | ⟨0, _⟩ => rfl
    | ⟨1, _⟩ => rfl
    | ⟨2, _⟩ => rfl)
  have er : ∀ k : Fin 4096, ridx_main_v2 (ix3 b s o) k = ix2 o k := fun k => funext fun a => Fin.ext (by
    match a with
    | ⟨0, _⟩ => rfl
    | ⟨1, _⟩ => rfl)
  have el0 : ∀ (k : Fin 4096) (r : Fin 16), lidx_main_v0 (ix2 o k) r = ix2 o r := fun k r => funext fun a => Fin.ext (by
    match a with
    | ⟨0, _⟩ => rfl
    | ⟨1, _⟩ => rfl)
  have er0 : ∀ (k : Fin 4096) (r : Fin 16), ridx_main_v0 (ix2 o k) r = ix2 r k := fun k r => funext fun a => Fin.ext (by
    match a with
    | ⟨0, _⟩ => rfl
    | ⟨1, _⟩ => rfl)
  rw [val_main_v5_apply, val_main_v2_apply, val_main_v4_apply, val_main_v3_apply, eb]
  show (∑ k : Fin 4096, x0 (lidx_main_v2 (ix3 b s o) k) * val_main_v1 (F := Ideal) x1 x3 x4 (ridx_main_v2 (ix3 b s o) k)) + x2 (ix1 o) = _
  unfold Cert.LoraLinear.lin3 Cert.LoraLinear.wadj
  refine congrArg (· + x2 (ix1 o)) (Finset.sum_congr rfl fun k _ => ?_)
  rw [el k, er k]
  refine congrArg (x0 (ix3 b s k) * ·) ?_
  show x1 (ix2 o k) + val_main_v0 (F := Ideal) x3 x4 (ix2 o k) = _
  refine congrArg (x1 (ix2 o k) + ·) ?_
  refine (val_main_v0_apply x3 x4 (ix2 o k)).trans (Finset.sum_congr rfl fun r _ => ?_)
  rw [el0 k r, er0 k r]

end Cert.ReferenceIdeal.RefValue

end
-- ==== Proof.lean ====
/-
  A linear layer with a low-rank weight correction: the fused kernel against the plain formula.

  Both programs compute, for every row `(b, s)` of a 4 x 2048 x 4096 input and every output `o`,
      out[b, s, o] = (Σ_i x[b, s, i] · (W[o, i] + Σ_r B[o, r] · A[r, i])) + bias[o].
  The reference forms the corrected weight once and contracts against it. The kernel flattens the rows, walks an
  8 x 8 x 4 grid of (1024 rows) x (512 outputs) x (1024 input positions), recomputes the corrected-weight block at every
  point, keeps the sum over the four blocks of input positions in a scratch block that it resets at the first of the
  four points, and at the fourth stores the sum plus the bias; the host reshapes the result back to three axes.
  On the extended reals a change of float format is the identity and both kinds of matrix product are plain sums, so
  the two results differ only in how the sum over the 4096 input positions is grouped: four consecutive blocks of 1024
  on one side, one sum on the other. Addition of extended reals is commutative and associative, so the groupings agree;
  no entry needs to be finite, and the precondition is never opened.

  The three frames are the generated ones (the reference's is its generated run with the result dropped); the
  idealization rewrote nothing, so its conjunct is trivial; the value claim joins the kernel's run read as the layer
  of its arguments with the reference's run read as the same function.
-/
import proofs.«181846_j88931592831054_1_alg».proof.Defs
import proofs.«181846_j88931592831054_1_alg».proof.Proof.Gen.Kernel
import proofs.«181846_j88931592831054_1_alg».proof.Proof.Gen.Kernel.Skeleton
import proofs.«181846_j88931592831054_1_alg».proof.Proof.Gen.Kernel.Launch
import proofs.«181846_j88931592831054_1_alg».proof.Proof.Gen.Kernel.Points
import proofs.«181846_j88931592831054_1_alg».proof.Proof.Gen.Kernel.Frame
import proofs.«181846_j88931592831054_1_alg».proof.Proof.Gen.KernelIdeal
import proofs.«181846_j88931592831054_1_alg».proof.Proof.Gen.KernelIdeal.Skeleton
import proofs.«181846_j88931592831054_1_alg».proof.Proof.Gen.KernelIdeal.Launch
import proofs.«181846_j88931592831054_1_alg».proof.Proof.Gen.KernelIdeal.Points
import proofs.«181846_j88931592831054_1_alg».proof.Proof.Gen.KernelIdeal.Frame
import proofs.«181846_j88931592831054_1_alg».proof.Proof.Gen.ReferenceIdeal
import proofs.«181846_j88931592831054_1_alg».proof.Proof.Gen.ReferenceIdeal.Run
import proofs.«181846_j88931592831054_1_alg».proof.Proof.Gen.ReferenceIdeal.Read
import proofs.«181846_j88931592831054_1_alg».proof.Proof.Gen.Pre_finite_inputs
import proofs.«181846_j88931592831054_1_alg».proof.Proof.Final
import proofs.«181846_j88931592831054_1_alg».proof.Proof.RefValue
import Idealize.ShloMosaic.Adequacy
import Idealize.ShloMosaic.Init

noncomputable section

namespace Cert.Proof

open Idealize.ShloMosaic Idealize.SL.Sem

/-- The kernel as printed runs, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the five arguments, the kernel's result array ends at the layer of
    its arguments and the reference's at the layer of its own: the same array. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v5_eq, Cert.ReferenceIdeal.RefValue.result_eq, a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
